-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S128x64 : Shape := ⟨2, ![128, 64]⟩
abbrev S128 : Shape := ⟨1, ![128]⟩
abbrev S128x128 : Shape := ⟨2, ![128, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S128x64 .f32) (main_arg3 : FVec F S128x64 .f32) (main_arg4 : FVec F S128 .f32) (main_arg5 : FVec F S128x128 .f32) (main_arg6 : FVec F S128x128 .f32) (main_arg7 : FVec F S128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S128x64 : Shape := ⟨2, ![128, 64]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x128 : Shape := ⟨2, ![1, 128]⟩
abbrev S50000x128 : Shape := ⟨2, ![50000, 128]⟩
abbrev S2000x64 : Shape := ⟨2, ![2000, 64]⟩
abbrev S2000x128 : Shape := ⟨2, ![2000, 128]⟩
abbrev S64x128 : Shape := ⟨2, ![64, 128]⟩
abbrev S800000x128 : Shape := ⟨2, ![800000, 128]⟩

abbrev nBuf : Space → Nat
  | .hbm => 66
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x64, .f32⟩
  | .hbm, ⟨3, _⟩ => ⟨S128x64, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x64, .f32⟩
  | .hbm, ⟨36, _⟩ => ⟨S50000x64, .f32⟩
  | .hbm, ⟨37, _⟩ => ⟨S1x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S_, .f32⟩
  | .hbm, ⟨53, _⟩ => ⟨S800000, .f32⟩
  | .hbm, ⟨54, _⟩ => ⟨S_, .f32⟩
  | .hbm, ⟨55, _⟩ => ⟨S50000, .f32⟩
  | .hbm, ⟨56, _⟩ => ⟨S800000x1, .i32⟩
  | .hbm, ⟨57, _⟩ => ⟨S50000, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S1x128, .f32⟩
  | .hbm, ⟨65, _⟩ => ⟨S50000x128, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S128x64, .f32⟩
  | .local _ .vmem, ⟨5, _⟩ => ⟨S128x64, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  transposes_S128x64_p1_0_S64x128 : S128x64.Transposes [1, 0] S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S2000x64_S64x128_S2000x128_1_0_0_1_n_n_wf : DotDims.WF S2000x64 S64x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v22) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S128x64 : Shape := ⟨2, ![128, 64]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S64x128 : Shape := ⟨2, ![64, 128]⟩
abbrev S50000x128 : Shape := ⟨2, ![50000, 128]⟩
abbrev S1x128 : Shape := ⟨2, ![1, 128]⟩
abbrev S800000x128 : Shape := ⟨2, ![800000, 128]⟩

abbrev nBuf : Space → Nat
  | .hbm => 82
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x64, .f32⟩
  | .hbm, ⟨3, _⟩ => ⟨S128x64, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S_, .f32⟩
  | .hbm, ⟨26, _⟩ => ⟨S800000x1, .f32⟩
  | .hbm, ⟨27, _⟩ => ⟨S_, .f32⟩
  | .hbm, ⟨28, _⟩ => ⟨S50000x1, .f32⟩
  | .hbm, ⟨29, _⟩ => ⟨S800000x1, .i32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S50000x1, .f32⟩
  | .hbm, ⟨34, _⟩ => ⟨S50000x64, .f32⟩
  | .hbm, ⟨35, _⟩ => ⟨S50000x64, .f32⟩
  | .hbm, ⟨36, _⟩ => ⟨S64x128, .f32⟩
  | .hbm, ⟨37, _⟩ => ⟨S50000x128, .f32⟩
  | .hbm, ⟨38, _⟩ => ⟨S64x128, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S_, .f32⟩
  | .hbm, ⟨61, _⟩ => ⟨S800000x1, .f32⟩
  | .hbm, ⟨62, _⟩ => ⟨S_, .f32⟩
  | .hbm, ⟨63, _⟩ => ⟨S50000x1, .f32⟩
  | .hbm, ⟨64, _⟩ => ⟨S800000x1, .i32⟩
  | .hbm, ⟨65, _⟩ => ⟨S50000x1, .f32⟩
  | .hbm, ⟨66, _⟩ => ⟨S_, .f32⟩
  | .hbm, ⟨67, _⟩ => ⟨S50000x1, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S128x128, .f32⟩
  | .hbm, ⟨72, _⟩ => ⟨S50000x128, .f32⟩
  | .hbm, ⟨73, _⟩ => ⟨S128x128, .f32⟩
  | .hbm, ⟨74, _⟩ => ⟨S50000x128, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S50000x128, .f32⟩
  | .hbm, ⟨81, _⟩ => ⟨S50000x128, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_call1_cst : Ref sig .tc := ⟨.hbm, 79, rfl⟩
abbrev main_call1_v0 : Ref sig .tc := ⟨.hbm, 80, rfl⟩
abbrev main_v57 : Ref sig .tc := ⟨.hbm, 81, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  transposes_S128x64_S64x128_1_0 : S128x64.Transposes [1, 0] S64x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000x1_S800000x1_S800000x1_1_0_0_1_wf : ScatterDims.WF S50000x1 S800000x1 S800000x1 [1] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibScatterColumn.lean ====
/-
  An accumulating scatter of a vector, and the same scatter of that vector written as a one-column matrix.

  Scattering updates `u[j]` (a vector of length e) into a vector of length n at the positions `idx[j, 0]`, and
  scattering the one-column matrix `u'[j, 0]` into an `[n, 1]` matrix at the rows `idx[j, 0]` (the column coordinate
  being the update's own window coordinate), add the same updates at the same places: update `j` of the first lands on
  entry `p` exactly when update `(j, 0)` of the second lands on entry `(p, 0)`.
-/
import Idealize.ShloMosaic.PureOps.Ideal
import Idealize.ShloMosaic.PureOps.Contract
import Idealize.ShloMosaic.Lib.ValueIdx

noncomputable section

namespace Cert.ScatterColumn

open Idealize.ShloMosaic Idealize.ShloMosaic.ValueIdx
open scoped BigOperators

/-- The dimension numbers of the accumulating scatter into a length-`n` vector: no window axis in the updates, the
    operand's one axis inserted, the one component of a start index going to that axis. -/
private abbrev vecDims {n e : ℕ} (hv : ScatterDims.WF ⟨1, ![n]⟩ ⟨2, ![e, 1]⟩ ⟨1, ![e]⟩ [] [0] [0] 1) :
    ScatterDims ⟨1, ![n]⟩ ⟨2, ![e, 1]⟩ ⟨1, ![e]⟩ := ⟨[], [0], [0], 1, hv⟩

/-- The dimension numbers of the accumulating scatter into an `[n, 1]` column: the updates' second axis is their window
    axis and goes to the operand's second axis, the operand's first axis is inserted, the one component of a start index
    going to that first axis. -/
private abbrev colDims {n e : ℕ} (hc : ScatterDims.WF ⟨2, ![n, 1]⟩ ⟨2, ![e, 1]⟩ ⟨2, ![e, 1]⟩ [1] [0] [0] 1) :
    ScatterDims ⟨2, ![n, 1]⟩ ⟨2, ![e, 1]⟩ ⟨2, ![e, 1]⟩ := ⟨[1], [0], [0], 1, hc⟩

/-! ## The start and the window coordinate of each scatter, axis by axis -/

/-- Vector scatter: update `j` starts, on the operand's one axis, at the signed value of `idx[j, 0]`. -/
private theorem start_vec {n e w : ℕ} (hv : ScatterDims.WF ⟨1, ![n]⟩ ⟨2, ![e, 1]⟩ ⟨1, ![e]⟩ [] [0] [0] 1)
    (idx : IVec ⟨2, ![e, 1]⟩ w) (j : Fin e) :
    (vecDims hv).start (ix1 j) idx 0 = (idx (ix2 j (0 : Fin 1))).toInt := by
  unfold ScatterDims.start
  rw [dif_pos (show (0 : Fin 1) ∈ (vecDims hv).scatterDimsToOperandDims from List.mem_singleton.mpr rfl)]
  congr 2
  funext b; refine Fin.ext ?_
  match b with
  | ⟨0, _⟩ => rfl
  | ⟨1, _⟩ => rfl

/-- Vector scatter: the operand's one axis is an inserted axis, so the window coordinate on it is `0`. -/
private theorem window_vec {n e : ℕ} (hv : ScatterDims.WF ⟨1, ![n]⟩ ⟨2, ![e, 1]⟩ ⟨1, ![e]⟩ [] [0] [0] 1)
    (j : Fin e) :
    (vecDims hv).window (ix1 j) 0 = 0 := by
  unfold ScatterDims.window
  split_ifs with ha
  · exact absurd ha (show ¬ (0 : Fin 1) ∈ (List.finRange 1).filter (fun a => a ∉ [(0 : Fin 1)]) by decide)
  · rfl

/-- Column scatter: update `(j, c)` starts, on the operand's first axis, at the signed value of `idx[j, 0]`, whatever
    its window coordinate `c`. -/
private theorem start_col0 {n e w : ℕ} (hc : ScatterDims.WF ⟨2, ![n, 1]⟩ ⟨2, ![e, 1]⟩ ⟨2, ![e, 1]⟩ [1] [0] [0] 1)
    (idx : IVec ⟨2, ![e, 1]⟩ w) (j : Fin e) (c : Fin 1) :
    (colDims hc).start (ix2 j c) idx 0 = (idx (ix2 j (0 : Fin 1))).toInt := by
  unfold ScatterDims.start
  rw [dif_pos (show (0 : Fin 2) ∈ (colDims hc).scatterDimsToOperandDims from List.mem_singleton.mpr rfl)]
  congr 2
  funext b; refine Fin.ext ?_
  match b with
  | ⟨0, _⟩ => rfl
  | ⟨1, _⟩ => rfl

/-- Column scatter: no component of a start index goes to the operand's second axis, so the start there is `0`. -/
private theorem start_col1 {n e w : ℕ} (hc : ScatterDims.WF ⟨2, ![n, 1]⟩ ⟨2, ![e, 1]⟩ ⟨2, ![e, 1]⟩ [1] [0] [0] 1)
    (idx : IVec ⟨2, ![e, 1]⟩ w) (j : Fin e) (c : Fin 1) :
    (colDims hc).start (ix2 j c) idx 1 = 0 := by
  unfold ScatterDims.start
  rw [dif_neg (show ¬ (1 : Fin 2) ∈ [(0 : Fin 2)] by decide)]

/-- Column scatter: the operand's first axis is an inserted axis, so the window coordinate on it is `0`. -/
private theorem window_col0 {n e : ℕ} (hc : ScatterDims.WF ⟨2, ![n, 1]⟩ ⟨2, ![e, 1]⟩ ⟨2, ![e, 1]⟩ [1] [0] [0] 1)
    (j : Fin e) (c : Fin 1) :
    (colDims hc).window (ix2 j c) 0 = 0 := by
  unfold ScatterDims.window
  split_ifs with ha
  · exact absurd ha (show ¬ (0 : Fin 2) ∈ (List.finRange 2).filter (fun a => a ∉ [(0 : Fin 2)]) by decide)
  · rfl

/-- Column scatter: the operand's second axis is the one kept axis, and the updates' window axis goes to it, so the
    window coordinate of update `(j, c)` on it is `c`. -/
private theorem window_col1 {n e : ℕ} (hc : ScatterDims.WF ⟨2, ![n, 1]⟩ ⟨2, ![e, 1]⟩ ⟨2, ![e, 1]⟩ [1] [0] [0] 1)
    (j : Fin e) (c : Fin 1) :
    (colDims hc).window (ix2 j c) 1 = c.val := by
  unfold ScatterDims.window
  split_ifs with ha
  · rfl
  · exact absurd (show (1 : Fin 2) ∈ (List.finRange 2).filter (fun a => a ∉ [(0 : Fin 2)]) by decide) ha

/-! ## Where an update lands -/

/-- Vector scatter: update `j` lands on entry `p` exactly when the signed value of `idx[j, 0]` is `p`. (A start index
    that is negative or at least `n` lands nowhere, and is then no `p` either.) -/
private theorem resultIdx_vec_iff {n e w : ℕ} (hv : ScatterDims.WF ⟨1, ![n]⟩ ⟨2, ![e, 1]⟩ ⟨1, ![e]⟩ [] [0] [0] 1)
    (idx : IVec ⟨2, ![e, 1]⟩ w) (j : Fin e) (p : Fin n) :
    (vecDims hv).resultIdx? (ix1 j) idx = some (ix1 p) ↔ (idx (ix2 j (0 : Fin 1))).toInt = (p.val : ℤ) := by
  have hp := p.isLt
  unfold ScatterDims.resultIdx?
  split_ifs with h
  · -- the update lands inside the operand: compare the one coordinate
    have h0 := h 0
    rw [start_vec, window_vec] at h0
    rw [Option.some.injEq]
    constructor
    · intro hf
      have h1 := congrArg Fin.val (congrFun hf 0)
      have h2 : ((vecDims hv).start (ix1 j) idx 0 + ((vecDims hv).window (ix1 j) 0 : ℕ)).toNat = p.val := h1
      rw [start_vec, window_vec] at h2
      omega
    · intro hS
      funext a
      obtain rfl : a = 0 := Subsingleton.elim _ _
      refine Fin.ext ?_
      show ((vecDims hv).start (ix1 j) idx 0 + ((vecDims hv).window (ix1 j) 0 : ℕ)).toNat = p.val
      rw [start_vec, window_vec]
      omega
  · -- the update is dropped: its start is outside `[0, n)`, so it is not `p`
    constructor
    · intro h'; cases h'
    · intro hS
      exfalso; apply h
      intro a
      obtain rfl : a = 0 := Subsingleton.elim _ _
      rw [start_vec, window_vec]
      have hsz : (⟨1, ![n]⟩ : Shape).size 0 = n := rfl
      rw [hsz]
      omega

/-- Column scatter: update `(j, 0)` lands on entry `(p, 0)` exactly when the signed value of `idx[j, 0]` is `p`: on
    the first axis this is the vector scatter's condition, and on the second axis start `0` plus window coordinate `0`
    is the column's one coordinate `0`. -/
private theorem resultIdx_col_iff {n e w : ℕ} (hc : ScatterDims.WF ⟨2, ![n, 1]⟩ ⟨2, ![e, 1]⟩ ⟨2, ![e, 1]⟩ [1] [0] [0] 1)
    (idx : IVec ⟨2, ![e, 1]⟩ w) (j : Fin e) (p : Fin n) :
    (colDims hc).resultIdx? (ix2 j (0 : Fin 1)) idx = some (ix2 p (0 : Fin 1)) ↔
      (idx (ix2 j (0 : Fin 1))).toInt = (p.val : ℤ) := by
  have hp := p.isLt
  unfold ScatterDims.resultIdx?
  split_ifs with h
  · -- the update lands inside the operand: compare the two coordinates
    have h0 := h 0
    rw [start_col0, window_col0] at h0
    rw [Option.some.injEq]
    constructor
    · intro hf
      have h1 := congrArg Fin.val (congrFun hf 0)
      have h2 : ((colDims hc).start (ix2 j (0 : Fin 1)) idx 0 +
          ((colDims hc).window (ix2 j (0 : Fin 1)) 0 : ℕ)).toNat = p.val := h1
      rw [start_col0, window_col0] at h2
      omega
    · intro hS
      funext a
      refine Fin.ext ?_
      match a with
      | ⟨0, _⟩ =>
        show ((colDims hc).start (ix2 j (0 : Fin 1)) idx 0 +
          ((colDims hc).window (ix2 j (0 : Fin 1)) 0 : ℕ)).toNat = p.val
        rw [start_col0, window_col0]
        omega
      | ⟨1, _⟩ =>
        show ((colDims hc).start (ix2 j (0 : Fin 1)) idx 1 +
          ((colDims hc).window (ix2 j (0 : Fin 1)) 1 : ℕ)).toNat = 0
        rw [start_col1, window_col1]
        rfl
  · -- the update is dropped; the second axis is always in range, so its start on the first axis is outside `[0, n)`
    constructor
    · intro h'; cases h'
    · intro hS
      exfalso; apply h
      intro a
      match a with
      | ⟨0, _⟩ =>
        show 0 ≤ (colDims hc).start (ix2 j (0 : Fin 1)) idx 0 + ((colDims hc).window (ix2 j (0 : Fin 1)) 0 : ℕ) ∧
          (colDims hc).start (ix2 j (0 : Fin 1)) idx 0 + ((colDims hc).window (ix2 j (0 : Fin 1)) 0 : ℕ) < (n : ℤ)
        rw [start_col0, window_col0]
        omega
      | ⟨1, _⟩ =>
        show 0 ≤ (colDims hc).start (ix2 j (0 : Fin 1)) idx 1 + ((colDims hc).window (ix2 j (0 : Fin 1)) 1 : ℕ) ∧
          (colDims hc).start (ix2 j (0 : Fin 1)) idx 1 + ((colDims hc).window (ix2 j (0 : Fin 1)) 1 : ℕ) < ((1 : ℕ) : ℤ)
        rw [start_col1, window_col1]
        simp

/-! ## The two scatters agree -/

/-- The accumulating scatter into an `[n, 1]` column reads, at row `p`, what the accumulating scatter into the length-`n`
    vector reads at `p`, when the operands and the updates agree entry by entry. -/
theorem hostScatterAdd_column {n e : ℕ} {w : ℕ}
    (hv : ScatterDims.WF ⟨1, ![n]⟩ ⟨2, ![e, 1]⟩ ⟨1, ![e]⟩ [] [0] [0] 1)
    (hc : ScatterDims.WF ⟨2, ![n, 1]⟩ ⟨2, ![e, 1]⟩ ⟨2, ![e, 1]⟩ [1] [0] [0] 1)
    (x : (⟨1, ![n]⟩ : Shape).Idx → EReal) (x' : (⟨2, ![n, 1]⟩ : Shape).Idx → EReal)
    (idx : IVec ⟨2, ![e, 1]⟩ w)
    (u : (⟨1, ![e]⟩ : Shape).Idx → EReal) (u' : (⟨2, ![e, 1]⟩ : Shape).Idx → EReal)
    (hx : ∀ p : Fin n, x' (ix2 p (0 : Fin 1)) = x (ix1 p))
    (hu : ∀ j : Fin e, u' (ix2 j (0 : Fin 1)) = u (ix1 j)) (p : Fin n) :
    Ideal.hostScatterAdd (⟨[1], [0], [0], 1, hc⟩ : ScatterDims ⟨2, ![n, 1]⟩ ⟨2, ![e, 1]⟩ ⟨2, ![e, 1]⟩) x' idx u' (ix2 p (0 : Fin 1))
      = Ideal.hostScatterAdd (⟨[], [0], [0], 1, hv⟩ : ScatterDims ⟨1, ![n]⟩ ⟨2, ![e, 1]⟩ ⟨1, ![e]⟩) x idx u (ix1 p) := by
  -- both sides are "operand entry plus the sum of the updates that land there"; the operand entries agree by `hx`
  unfold Ideal.hostScatterAdd
  rw [hx]
  congr 1
  -- the updates landing on `(p, 0)` and those landing on `p` correspond under `(j, 0) ↦ j`, every index of the
  -- `[e, 1]` shape being some `(j, 0)`; corresponding updates are equal by `hu`
  refine Finset.sum_nbij' (fun j' => ix1 (n := e) (j' 0)) (fun j => ix2 (n0 := e) (j 0) (0 : Fin 1)) ?_ ?_ ?_ ?_ ?_
  · intro j' hj'
    obtain ⟨a, b, rfl⟩ : ∃ (a : Fin e) (b : Fin 1), j' = ix2 a b := ⟨j' 0, j' 1, eq_ix2 j'⟩
    obtain rfl : b = 0 := Subsingleton.elim _ _
    rw [Finset.mem_filter] at hj' ⊢
    exact ⟨Finset.mem_univ _, (resultIdx_vec_iff hv idx a p).2 ((resultIdx_col_iff hc idx a p).1 hj'.2)⟩
  · intro j hj
    obtain ⟨a, rfl⟩ : ∃ a : Fin e, j = ix1 a := ⟨j 0, eq_ix1 j⟩
    rw [Finset.mem_filter] at hj ⊢
    exact ⟨Finset.mem_univ _, (resultIdx_col_iff hc idx a p).2 ((resultIdx_vec_iff hv idx a p).1 hj.2)⟩
  · intro j' _
    obtain ⟨a, b, rfl⟩ : ∃ (a : Fin e) (b : Fin 1), j' = ix2 a b := ⟨j' 0, j' 1, eq_ix2 j'⟩
    obtain rfl : b = 0 := Subsingleton.elim _ _
    rfl
  · intro j _
    obtain ⟨a, rfl⟩ : ∃ a : Fin e, j = ix1 a := ⟨j 0, eq_ix1 j⟩
    rfl
  · intro j' _
    obtain ⟨a, b, rfl⟩ : ∃ (a : Fin e) (b : Fin 1), j' = ix2 a b := ⟨j' 0, j' 1, eq_ix2 j'⟩
    obtain rfl : b = 0 := Subsingleton.elim _ _
    exact hu a

/-- The same for the host operation as a program prints it (`Host.scatterAdd`, which at the ideal instance is that sum):
    the accumulating scatter into an `[n, 1]` column reads at row `p` what the one into the length-`n` vector reads at `p`. -/
theorem host_scatterAdd_column {n e : ℕ} {w : ℕ}
    (hv : ScatterDims.WF ⟨1, ![n]⟩ ⟨2, ![e, 1]⟩ ⟨1, ![e]⟩ [] [0] [0] 1)
    (hc : ScatterDims.WF ⟨2, ![n, 1]⟩ ⟨2, ![e, 1]⟩ ⟨2, ![e, 1]⟩ [1] [0] [0] 1)
    (x : FVec Ideal ⟨1, ![n]⟩ .f32) (x' : FVec Ideal ⟨2, ![n, 1]⟩ .f32)
    (idx : IVec ⟨2, ![e, 1]⟩ w)
    (u : FVec Ideal ⟨1, ![e]⟩ .f32) (u' : FVec Ideal ⟨2, ![e, 1]⟩ .f32)
    (hx : ∀ p : Fin n, x' (ix2 p (0 : Fin 1)) = x (ix1 p))
    (hu : ∀ j : Fin e, u' (ix2 j (0 : Fin 1)) = u (ix1 j)) (p : Fin n) :
    Host.scatterAdd (F := Ideal) (⟨[1], [0], [0], 1, hc⟩ : ScatterDims ⟨2, ![n, 1]⟩ ⟨2, ![e, 1]⟩ ⟨2, ![e, 1]⟩) x' idx u' (ix2 p (0 : Fin 1))
      = Host.scatterAdd (F := Ideal) (⟨[], [0], [0], 1, hv⟩ : ScatterDims ⟨1, ![n]⟩ ⟨2, ![e, 1]⟩ ⟨1, ![e]⟩) x idx u (ix1 p) :=
  hostScatterAdd_column hv hc x x' idx u u' hx hu p

end Cert.ScatterColumn

end
-- ==== Proof.Spec.lean ====
/-
  One layer of the encoder, after the neighbourhood mean has been formed.

  For node features `x` and aggregated neighbour features `a` (both `[N, D]`), weights `wl`, `wr` (both `[H, D]`) and a
  bias `b` (`[H]`), the layer's output at node `p` and channel `q` is

      max ((∑ₖ a[p,k]·wl[q,k] + ∑ₖ x[p,k]·wr[q,k]) + b[q]) 0

  on the extended reals: the two linear maps `a·wlᵀ` and `x·wrᵀ`, summed in that order, the bias added last, and the
  result floored at zero.  The zero is kept as the float word both programs print, so it is never evaluated.
-/
import Idealize.ShloMosaic.PureOps.Ideal
import Idealize.ShloMosaic.Lib.ValueIdx

noncomputable section

namespace Cert.Sage

open Idealize.ShloMosaic Idealize.ShloMosaic.ValueIdx
open scoped BigOperators

/-- The layer's output as one function of its five operands, index by index. -/
def combine (N D H : ℕ) (a x : (⟨2, ![N, D]⟩ : Shape).Idx → EReal) (wl wr : (⟨2, ![H, D]⟩ : Shape).Idx → EReal)
    (b : (⟨1, ![H]⟩ : Shape).Idx → EReal) : (⟨2, ![N, H]⟩ : Shape).Idx → EReal :=
  fun i => max ((∑ k : Fin D, a (ix2 (i 0 : Fin N) k) * wl (ix2 (i 1 : Fin H) k)
      + ∑ k : Fin D, x (ix2 (i 0 : Fin N) k) * wr (ix2 (i 1 : Fin H) k)) + b (ix1 (i 1 : Fin H)))
    (Ideal.ofBits .f32 0x00000000#32)

/-- The same at a named node and channel. -/
theorem combine_apply (N D H : ℕ) (a x : (⟨2, ![N, D]⟩ : Shape).Idx → EReal) (wl wr : (⟨2, ![H, D]⟩ : Shape).Idx → EReal)
    (b : (⟨1, ![H]⟩ : Shape).Idx → EReal) (p : Fin N) (q : Fin H) :
    combine N D H a x wl wr b (ix2 p q)
      = max ((∑ k : Fin D, a (ix2 p k) * wl (ix2 q k) + ∑ k : Fin D, x (ix2 p k) * wr (ix2 q k)) + b (ix1 q))
          (Ideal.ofBits .f32 0x00000000#32) := rfl

end Cert.Sage

end
-- ==== Proof.Layer1K.lean ====
/-
  The first dense region of the kernel, read as a value.

  Each of its 25 grid points loads a block of 2000 rows of the aggregated features and of the node features, the two
  128×64 weight matrices whole and the bias row, and stores the 2000×128 block
  max ((a·wlᵀ + x·wrᵀ) + b) 0 of the result.  The blocks tile the 50000 rows, so after the region the result array is
  the layer's function (Spec) of the five arrays as the region found them.
-/
import proofs.«122773_j12257836663105_1_alg».proof.Proof.Gen.KernelIdeal.Frame
import proofs.«122773_j12257836663105_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open scoped BigOperators

/-! ## The block product at an index -/

/-- A row of the product keeps the left operand's row: the left index's first coordinate is the output's. -/
private theorem lhs_row (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
/-- The left index's second coordinate is the summation index. -/
private theorem lhs_sum (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
/-- The right index's first coordinate is the summation index. -/
private theorem rhs_sum (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
/-- A column of the product keeps the right operand's column. -/
private theorem rhs_col (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- A 2000×64 block times the transpose of a 128×64 weight matrix, accumulated into zero: entry (p, q) is the
    inner product of row p of the block with row q of the weights. -/
private theorem block_times_transpose (x : FVec Ideal S2000x64 .bf16) (w : FVec Ideal S128x64 .bf16) (p : Fin 2000) (q : Fin 128) :
    matmul (F := Ideal) dot_S2000x64_S64x128_S2000x128_1_0_0_1_n_n none x (transpose S64x128 [1, 0] w transposes_S128x64_p1_0_S64x128)
        (constant (F := Ideal) S2000x128 .f32 0x00000000#32) (ix2 p q)
      = ∑ k : Fin 64, x (ix2 p k) * w (ix2 q k) := by
  simp only [matmul]
  rw [Ideal.matmul_constant_zero_apply, ← Equiv.sum_comp (contrEquiv1 dot_S2000x64_S64x128_S2000x128_1_0_0_1_n_n 64 rfl rfl).symm]
  refine Finset.sum_congr rfl fun k _ => ?_
  have hk := contrEquiv1_symm_val dot_S2000x64_S64x128_S2000x128_1_0_0_1_n_n 64 rfl rfl k
  have el : dot_S2000x64_S64x128_S2000x128_1_0_0_1_n_n.lhsIdx (ix2 p q) ((contrEquiv1 dot_S2000x64_S64x128_S2000x128_1_0_0_1_n_n 64 rfl rfl).symm k) = ix2 p k := funext fun a => Fin.ext (by
    match a with
    | ⟨0, _⟩ => exact lhs_row _ _
    | ⟨1, _⟩ => exact (lhs_sum _ _).trans hk)
  have er : dot_S2000x64_S64x128_S2000x128_1_0_0_1_n_n.rhsIdx (ix2 p q) ((contrEquiv1 dot_S2000x64_S64x128_S2000x128_1_0_0_1_n_n 64 rfl rfl).symm k) = ix2 k q := funext fun a => Fin.ext (by
    match a with
    | ⟨0, _⟩ => exact (rhs_sum _ _).trans hk
    | ⟨1, _⟩ => exact rhs_col _ _)
  rw [el, er]
  exact congrArg (x (ix2 p k) * ·) (transpose_apply [1, 0] w transposes_S128x64_p1_0_S64x128 (ix2 k q) (ix2 q k) (fun b => match b with
    | ⟨0, _⟩ => rfl
    | ⟨1, _⟩ => rfl))

/-! ## The body's arithmetic at an index -/

/-- What the body stores at row p, channel q of its block: the two inner products, the bias, floored at zero. -/
private theorem pay_apply (x0 x1 : Vec Ideal S2000x64 .f32) (x2 x3 : Vec Ideal S128x64 .f32) (x4 : Vec Ideal S1x128 .f32)
    (p : Fin 2000) (q : Fin 128) :
    k0_pay1 x0 x1 x2 x3 x4 (ix2 p q)
      = max ((∑ k : Fin 64, x0 (ix2 p k) * x2 (ix2 q k) + ∑ k : Fin 64, x1 (ix2 p k) * x3 (ix2 q k))
          + x4 (ix2 (0 : Fin 1) q)) (Ideal.ofBits .f32 0x00000000#32) := by
  unfold k0_pay1
  rw [maximumf_apply, addf_apply, addf_apply, block_times_transpose, block_times_transpose]
  rw [shapeCast_self, shapeCast_self,
    broadcastTo_apply x4 broadcasts_S1x128_S2000x128 (ix2 p q) (ix2 (0 : Fin 1) q) (fun a => match a with
      | ⟨0, _⟩ => rfl
      | ⟨1, _⟩ => rfl)]
  rfl

variable (V : (c : Dev nD) → (b : Ref sig .tc) → Buf (Elt Ideal) ((c : Thread nD τ).loc b))

/-! ## From blocks to the array -/

/-- The zero offsets of a whole-block access, as a constant function. -/
private theorem zero_offsets : (![0, 0] : Fin 2 → Nat) = fun _ => 0 := funext fun a => by fin_cases a <;> rfl

/-- The index maps over the 25 points: the two row-blocked inputs and the output sit at block (t, 0), the weights and the
    bias row at block (0, 0). -/
private theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block of the aggregated features is row 2000 t + p of the array. -/
private theorem aggregated_block (c : Dev nD) (t : Fin cfg0.N) (p : Fin 2000) (k : Fin 64) (r : Fin 50000)
    (hr : r.val = t.val * 2000 + p.val) :
    (iblk0 V c 0 t : Vec Ideal S2000x64 .f32) (ix2 p k) = V c main_v22 (ix2 r k) := by
  obtain ⟨e0, e1, -⟩ := block_index t
  show V c main_v22 (((cfg0.win 0).blk t).view.emb (ix2 p k)) = V c main_v22 (ix2 r k)
  refine congrArg (V c main_v22) (funext fun a => Fin.ext ?_)
  match a with
  | ⟨0, _⟩ => show win0_0.index t (0 : Fin 2) * 2000 + 1 * p.val = r.val; omega
  | ⟨1, _⟩ => show win0_0.index t (1 : Fin 2) * 64 + 1 * k.val = k.val; omega

/-- Row p of point t's block of the node features is row 2000 t + p of the array. -/
private theorem features_block (c : Dev nD) (t : Fin cfg0.N) (p : Fin 2000) (k : Fin 64) (r : Fin 50000)
    (hr : r.val = t.val * 2000 + p.val) :
    (iblk0 V c 1 t : Vec Ideal S2000x64 .f32) (ix2 p k) = V c main_arg0 (ix2 r k) := by
  obtain ⟨-, -, e0, e1, -⟩ := block_index t
  show V c main_arg0 (((cfg0.win 1).blk t).view.emb (ix2 p k)) = V c main_arg0 (ix2 r k)
  refine congrArg (V c main_arg0) (funext fun a => Fin.ext ?_)
  match a with
  | ⟨0, _⟩ => show win0_1.index t (0 : Fin 2) * 2000 + 1 * p.val = r.val; omega
  | ⟨1, _⟩ => show win0_1.index t (1 : Fin 2) * 64 + 1 * k.val = k.val; omega

/-- Every point loads the first weight matrix whole. -/
private theorem left_weights_block (c : Dev nD) (t : Fin cfg0.N) (q : Fin 128) (k : Fin 64) :
    (iblk0 V c 2 t : Vec Ideal S128x64 .f32) (ix2 q k) = V c main_arg2 (ix2 q k) := by
  obtain ⟨-, -, -, -, e0, e1, -⟩ := block_index t
  show V c main_arg2 (((cfg0.win 2).blk t).view.emb (ix2 q k)) = V c main_arg2 (ix2 q k)
  refine congrArg (V c main_arg2) (funext fun a => Fin.ext ?_)
  match a with
  | ⟨0, _⟩ => show win0_2.index t (0 : Fin 2) * 128 + 1 * q.val = q.val; omega
  | ⟨1, _⟩ => show win0_2.index t (1 : Fin 2) * 64 + 1 * k.val = k.val; omega

/-- Every point loads the second weight matrix whole. -/
private theorem right_weights_block (c : Dev nD) (t : Fin cfg0.N) (q : Fin 128) (k : Fin 64) :
    (iblk0 V c 3 t : Vec Ideal S128x64 .f32) (ix2 q k) = V c main_arg3 (ix2 q k) := by
  obtain ⟨-, -, -, -, -, -, e0, e1, -⟩ := block_index t
  show V c main_arg3 (((cfg0.win 3).blk t).view.emb (ix2 q k)) = V c main_arg3 (ix2 q k)
  refine congrArg (V c main_arg3) (funext fun a => Fin.ext ?_)
  match a with
  | ⟨0, _⟩ => show win0_3.index t (0 : Fin 2) * 128 + 1 * q.val = q.val; omega
  | ⟨1, _⟩ => show win0_3.index t (1 : Fin 2) * 64 + 1 * k.val = k.val; omega

/-- Every point loads the bias row whole. -/
private theorem bias_block (c : Dev nD) (t : Fin cfg0.N) (q : Fin 128) :
    (iblk0 V c 4 t : Vec Ideal S1x128 .f32) (ix2 (0 : Fin 1) q) = V c main_v23 (ix2 (0 : Fin 1) q) := by
  obtain ⟨-, -, -, -, -, -, -, -, e0, e1, -⟩ := block_index t
  show V c main_v23 (((cfg0.win 4).blk t).view.emb (ix2 (0 : Fin 1) q)) = V c main_v23 (ix2 (0 : Fin 1) q)
  refine congrArg (V c main_v23) (funext fun a => Fin.ext ?_)
  match a with
  | ⟨0, _⟩ => show win0_4.index t (0 : Fin 2) * 1 + 1 * (0 : Fin 1).val = (0 : Fin 1).val; omega
  | ⟨1, _⟩ => show win0_4.index t (1 : Fin 2) * 128 + 1 * q.val = q.val; omega

/-- What point t writes back is block t of the layer's function of the five arrays. -/
private theorem flushed_eq (c : Dev nD) (t : Fin cfg0.N) :
    (dat0 (F := Ideal) V c).flushed 5 t = ((cfg0.win 5).blk t).view.read (Elt Ideal)
      (Cert.Sage.combine 50000 64 128 (V c main_v22) (V c main_arg0) (V c main_arg2) (V c main_arg3)
          (fun j => V c main_v23 (ix2 (0 : Fin 1) (j 0)))) := by
  show (cfg0.win 5).cut (grid0.coords t) ((dat0 V c).after 5 t) = _
  rw [after0_5]
  unfold out0_5
  rw [View.canon_unit_zero zero_offsets]
  simp only [View.ld_unit_zero (S := S2000x64) zero_offsets, View.ld_unit_zero (S := S128x64) zero_offsets,
    View.ld_unit_zero (S := S1x128) zero_offsets]
  refine funext fun (j : S2000x128.Idx) => ?_
  obtain ⟨p, q, rfl⟩ : ∃ (p : Fin 2000) (q : Fin 128), j = ix2 p q := ⟨j 0, j 1, eq_ix2 j⟩
  obtain ⟨-, -, -, -, -, -, -, -, -, -, e0, e1⟩ := block_index t
  have ht : t.val < 25 := t.isLt
  have hr : t.val * 2000 + p.val < 50000 := by have := p.isLt; omega
  -- the output block's (p, q) is the array's (2000 t + p, q)
  have hemb : ((cfg0.win 5).blk t).view.emb (ix2 p q) = (ix2 (⟨t.val * 2000 + p.val, hr⟩ : Fin 50000) q : S50000x128.Idx) := by
    funext a; apply Fin.ext
    match a with
    | ⟨0, _⟩ => show win0_5.index t (0 : Fin 2) * 2000 + 1 * p.val = t.val * 2000 + p.val; omega
    | ⟨1, _⟩ => show win0_5.index t (1 : Fin 2) * 128 + 1 * q.val = q.val; omega
  show k0_pay1 (iblk0 V c 0 t) (iblk0 V c 1 t) (iblk0 V c 2 t) (iblk0 V c 3 t) (iblk0 V c 4 t) (ix2 p q)
      = Cert.Sage.combine 50000 64 128 (V c main_v22) (V c main_arg0) (V c main_arg2) (V c main_arg3)
          (fun j => V c main_v23 (ix2 (0 : Fin 1) (j 0))) (((cfg0.win 5).blk t).view.emb (ix2 p q))
  rw [hemb, Cert.Sage.combine_apply, pay_apply]
  -- both sides are now the same expression, the left over the blocks, the right over the arrays: term by term
  refine congrArg (fun z => max z (Ideal.ofBits .f32 0x00000000#32)) ?_
  refine congrArg₂ (· + ·) (congrArg₂ (· + ·) (Finset.sum_congr rfl fun k _ => ?_) (Finset.sum_congr rfl fun k _ => ?_)) ?_
  · rw [aggregated_block V c t p k ⟨t.val * 2000 + p.val, hr⟩ rfl, left_weights_block]
  · rw [features_block V c t p k ⟨t.val * 2000 + p.val, hr⟩ rfl, right_weights_block]
  · exact bias_block V c t q

/-- An index of the result array is in point t's block iff each coordinate is in the block's range on its axis. -/
private theorem mem_block (t : Fin cfg0.N) (i : S50000x128.Idx) :
    i ∈ ((cfg0.win 5).blk t).view.set
      ↔ ∀ a : Fin 2, win0_5.index t a * S2000x128.size a ≤ (i a).val
          ∧ (i a).val < win0_5.index t a * S2000x128.size a + S2000x128.size a := by
  show i ∈ ((View.whole main_v24).slice (win0_5.rect t)).set ↔ _
  rw [View.set_slice_whole, Rect.mem_set_unit]
  exact Iff.rfl

/-- The 25 blocks of 2000 rows tile the 50000 rows: row r is in the block of point r / 2000, and every point writes
    its block back. -/
private theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hlt : (i 0).val / 2000 < 25 := by omega
  obtain ⟨t, ht⟩ : ∃ t : Fin cfg0.N, t.val = (i 0).val / 2000 := ⟨⟨(i 0).val / 2000, hlt⟩, rfl⟩
  obtain ⟨-, -, -, -, -, -, -, -, -, -, e0, e1⟩ := block_index t
  refine ⟨t, flush0_5 t, ?_⟩
  rw [mem_block]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 128 ≤ (i 1).val ∧ (i 1).val < win0_5.index t (1 : Fin 2) * 128 + 128
    omega

/-- After the first region its result array holds the layer's function of the arrays it was entered with. -/
theorem final (c : Dev nD) :
    (dat0 (F := Ideal) V c).arrAt 5 cfg0.N
      = Cert.Sage.combine 50000 64 128 (V c main_v22) (V c main_arg0) (V c main_arg2) (V c main_arg3)
          (fun j => V c main_v23 (ix2 (0 : Fin 1) (j 0))) := by
  exact (dat0 V c).arrAt_eq_of_cover 5 _ (fun t _ => flushed_eq V c t) (cover)

end Cert.KernelIdeal.Layer1

end
-- ==== Proof.Layer2K.lean ====
/-
  The second dense region of the kernel, read as a value.

  Each of its 25 grid points loads a block of 2000 rows of the aggregated hidden features and of the hidden features,
  the two 128×128 weight matrices whole and the bias row, and stores the 2000×128 block
  max ((a·wlᵀ + h·wrᵀ) + b) 0 of the result.  The blocks tile the 50000 rows, so after the region the result array is
  the layer's function (Spec) of the five arrays as the region found them.
-/
import proofs.«122773_j12257836663105_1_alg».proof.Proof.Gen.KernelIdeal.Frame
import proofs.«122773_j12257836663105_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer2

open Cert.KernelIdeal Cert.KernelIdeal.Gen
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

/-! ## One product of the body at a row and a channel

The body multiplies a block of 2000 rows by the transpose of a 128×128 weight matrix: the contraction runs over the
128 input channels, the row comes from the left operand and the output channel from the right one. -/

/-- The left operand is read at the output's row … -/
private theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … and at the contracted channel; -/
private theorem lhs_contr (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand at the contracted channel … -/
private theorem rhs_contr (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … and at the output's channel. -/
private theorem rhs_chan (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block times a matrix, accumulated into zero, at row `p` and channel `q`: the sum over the input channels. -/
private theorem matmul_at (a : FVec Ideal S2000x128 .bf16) (w : FVec Ideal S128x128 .bf16) (p : Fin 2000) (q : Fin 128) :
    matmul (F := Ideal) dot_S2000x128_S128x128_S2000x128_1_0_0_1_n_n none a w (constant (F := Ideal) S2000x128 .f32 0x00000000#32) (ix2 p q)
      = ∑ k : Fin 128, a (ix2 p k) * w (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_contr _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_contr _ _).trans hk
    | ⟨1, _⟩ => exact rhs_chan _ _)
  rw [el, er]

/-- The transposed weight matrix at input channel `k` and output channel `q` is the matrix at `(q, k)`. -/
private theorem transpose_at (w : FVec Ideal S128x128 .bf16) (k q : Fin 128) :
    transpose S128x128 [1, 0] w transposes_S128x128_p1_0_S128x128 (ix2 k q) = w (ix2 q k) :=
  transpose_apply [1, 0] w transposes_S128x128_p1_0_S128x128 (ix2 k q) (ix2 q k) (fun b => match b with
    | ⟨0, _⟩ => rfl
    | ⟨1, _⟩ => rfl)

/-- The bias row laid along every row of the block reads, at channel `q`, the row's entry `q`. -/
private theorem bias_at (b : FVec Ideal S1x128 .f32) (p : Fin 2000) (q : Fin 128) :
    broadcastTo S2000x128 b broadcasts_S1x128_S2000x128 (ix2 p q) = b (ix2 (0 : Fin 1) q) :=
  broadcastTo_apply b broadcasts_S1x128_S2000x128 (ix2 p q) (ix2 (0 : Fin 1) q) (fun a => match a with
    | ⟨0, _⟩ => rfl
    | ⟨1, _⟩ => rfl)

/-- THE BODY'S RESULT at row `p` and channel `q` of its block: the two products summed, the bias added, floored at zero. -/
theorem pay_apply (x0 x1 : Vec Ideal S2000x128 .f32) (x2 x3 : Vec Ideal S128x128 .f32) (x4 : Vec Ideal S1x128 .f32)
    (p : Fin 2000) (q : Fin 128) :
    k1_pay1 (F := Ideal) x0 x1 x2 x3 x4 (ix2 p q)
      = max ((∑ k : Fin 128, x0 (ix2 p k) * x2 (ix2 q k) + ∑ k : Fin 128, x1 (ix2 p k) * x3 (ix2 q k)) + x4 (ix2 (0 : Fin 1) q))
          (Ideal.ofBits .f32 0x00000000#32) := by
  unfold k1_pay1
  rw [maximumf_apply, addf_apply, addf_apply, matmul_at, matmul_at, bias_at, shapeCast_self, shapeCast_self, shapeCast_self]
  refine congrArg₂ max (congrArg₂ (· + ·) (congrArg₂ (· + ·) (Finset.sum_congr rfl fun k _ => ?_) (Finset.sum_congr rfl fun k _ => ?_)) rfl) rfl
  · rw [transpose_at]; rfl
  · rw [transpose_at]; rfl

/-- The body's result on blocks that are, entry by entry, the arrays' rows `P` and the weights' rows `Q`, is the
    layer's function of the arrays at node `P` and channel `Q`. -/
private theorem pay_eq_combine (a x : S50000x128.Idx → EReal) (wl wr : S128x128.Idx → EReal) (b : S1x128.Idx → EReal)
    (x0 x1 : Vec Ideal S2000x128 .f32) (x2 x3 : Vec Ideal S128x128 .f32) (x4 : Vec Ideal S1x128 .f32)
    (p : Fin 2000) (q : Fin 128) (P : Fin 50000) (Q : Fin 128)
    (h0 : ∀ k : Fin 128, x0 (ix2 p k) = a (ix2 P k)) (h1 : ∀ k : Fin 128, x1 (ix2 p k) = x (ix2 P k))
    (h2 : ∀ k : Fin 128, x2 (ix2 q k) = wl (ix2 Q k)) (h3 : ∀ k : Fin 128, x3 (ix2 q k) = wr (ix2 Q k))
    (h4 : x4 (ix2 (0 : Fin 1) q) = b (ix2 (0 : Fin 1) Q)) :
    k1_pay1 (F := Ideal) x0 x1 x2 x3 x4 (ix2 p q)
      = Cert.Sage.combine 50000 128 128 a x wl wr (fun j => b (ix2 (0 : Fin 1) (j 0))) (ix2 P Q) := by
  rw [pay_apply, Cert.Sage.combine_apply]
  simp only [h0, h1, h2, h3, h4]

/-! ## From the blocks to the array -/

/-- The zero offsets of a whole-buffer access, however they are spelt. -/
private theorem zero_off : (![0, 0] : Fin 2 → Nat) = fun _ => 0 := funext fun a => by fin_cases a <;> rfl

/-- The printed index maps, decided over the 25 points: the two feature windows move down the rows with the result's
    window and stay in column block 0; the weights and the bias are one block each; the result's row block is at most 24. -/
private theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 24 :=
  (by decide +kernel : ∀ t : Fin grid1.N, _)

/-- Every one of the 25 row blocks is some point's. -/
private theorem idx_onto : ∀ r : Fin 25, ∃ t : Fin cfg1.N, win1_5.index t (0 : Fin 2) = r.val ∧ win1_5.index t (1 : Fin 2) = 0 :=
  (by decide +kernel : ∀ r : Fin 25, ∃ t : Fin grid1.N, win1_5.index t (0 : Fin 2) = r.val ∧ win1_5.index t (1 : Fin 2) = 0)

/-- WHAT POINT `t` WRITES BACK is block `t` of the layer's function of the arrays as the region finds them. -/
theorem flushed_eq (c : Dev nD) (t : Fin cfg1.N) :
    (dat1 (F := Ideal) V c).flushed 5 t = ((cfg1.win 5).blk t).view.read (Elt Ideal)
      (Cert.Sage.combine 50000 128 128 (V c main_v43) (V c main_v24) (V c main_arg5) (V c main_arg6)
        (fun j => V c main_v44 (ix2 (0 : Fin 1) (j 0)))) := by
  show (cfg1.win 5).cut (grid1.coords t) ((dat1 V c).after 5 t) = _
  rw [after1_5]
  unfold out1_5
  rw [View.canon_unit_zero zero_off]
  simp only [View.ld_unit_zero (S := S2000x128) zero_off, View.ld_unit_zero (S := S128x128) zero_off, View.ld_unit_zero (S := S1x128) zero_off]
  obtain ⟨e00, e01, e10, e11, e20, e21, e30, e31, e40, e41, e51, e5⟩ := idx_facts t
  funext j
  obtain ⟨p, q, rfl⟩ : ∃ (p : Fin 2000) (q : Fin 128), j = ix2 p q := ⟨j 0, j 1, eq_ix2 j⟩
  obtain ⟨P, Q, hi⟩ : ∃ (P : Fin 50000) (Q : Fin 128), ((cfg1.win 5).blk t).view.emb (ix2 p q) = ix2 P Q :=
    ⟨_, _, eq_ix2 _⟩
  have hP : win1_5.index t (0 : Fin 2) * 2000 + 1 * p.val = P.val := congrArg (fun i : S50000x128.Idx => (i 0).val) hi
  have hQ : win1_5.index t (1 : Fin 2) * 128 + 1 * q.val = Q.val := congrArg (fun i : S50000x128.Idx => (i 1).val) hi
  show k1_pay1 (F := Ideal) (iblk1 V c 0 t) (iblk1 V c 1 t) (iblk1 V c 2 t) (iblk1 V c 3 t) (iblk1 V c 4 t) (ix2 p q)
    = Cert.Sage.combine 50000 128 128 (V c main_v43) (V c main_v24) (V c main_arg5) (V c main_arg6)
        (fun j => V c main_v44 (ix2 (0 : Fin 1) (j 0))) (((cfg1.win 5).blk t).view.emb (ix2 p q))
  rw [hi]
  refine pay_eq_combine (V c main_v43) (V c main_v24) (V c main_arg5) (V c main_arg6) (V c main_v44)
    (iblk1 V c 0 t) (iblk1 V c 1 t) (iblk1 V c 2 t) (iblk1 V c 3 t) (iblk1 V c 4 t) p q P Q ?_ ?_ ?_ ?_ ?_
  · intro k
    show V c main_v43 (((cfg1.win 0).blk t).view.emb (ix2 p k)) = V c main_v43 (ix2 P k)
    refine congrArg (V c main_v43) (funext fun a => Fin.ext ?_)
    match a with
    | ⟨0, _⟩ => show win1_0.index t (0 : Fin 2) * 2000 + 1 * p.val = P.val; omega
    | ⟨1, _⟩ => show win1_0.index t (1 : Fin 2) * 128 + 1 * k.val = k.val; omega
  · intro k
    show V c main_v24 (((cfg1.win 1).blk t).view.emb (ix2 p k)) = V c main_v24 (ix2 P k)
    refine congrArg (V c main_v24) (funext fun a => Fin.ext ?_)
    match a with
    | ⟨0, _⟩ => show win1_1.index t (0 : Fin 2) * 2000 + 1 * p.val = P.val; omega
    | ⟨1, _⟩ => show win1_1.index t (1 : Fin 2) * 128 + 1 * k.val = k.val; omega
  · intro k
    show V c main_arg5 (((cfg1.win 2).blk t).view.emb (ix2 q k)) = V c main_arg5 (ix2 Q k)
    refine congrArg (V c main_arg5) (funext fun a => Fin.ext ?_)
    match a with
    | ⟨0, _⟩ => show win1_2.index t (0 : Fin 2) * 128 + 1 * q.val = Q.val; omega
    | ⟨1, _⟩ => show win1_2.index t (1 : Fin 2) * 128 + 1 * k.val = k.val; omega
  · intro k
    show V c main_arg6 (((cfg1.win 3).blk t).view.emb (ix2 q k)) = V c main_arg6 (ix2 Q k)
    refine congrArg (V c main_arg6) (funext fun a => Fin.ext ?_)
    match a with
    | ⟨0, _⟩ => show win1_3.index t (0 : Fin 2) * 128 + 1 * q.val = Q.val; omega
    | ⟨1, _⟩ => show win1_3.index t (1 : Fin 2) * 128 + 1 * k.val = k.val; omega
  · show V c main_v44 (((cfg1.win 4).blk t).view.emb (ix2 (0 : Fin 1) q)) = V c main_v44 (ix2 (0 : Fin 1) Q)
    refine congrArg (V c main_v44) (funext fun a => Fin.ext ?_)
    match a with
    | ⟨0, _⟩ => show win1_4.index t (0 : Fin 2) * 1 + 1 * (0 : Fin 1).val = (0 : Fin 1).val; omega
    | ⟨1, _⟩ => show win1_4.index t (1 : Fin 2) * 128 + 1 * q.val = Q.val; omega

/-- An index of the result array is in point `t`'s block iff each coordinate is in the block's range on its axis. -/
private theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v45).slice (win1_5.rect t)).set ↔ _
  rw [View.set_slice_whole, Rect.mem_set_unit]
  exact Iff.rfl

/-- The 25 blocks of 2000 rows tile the 50000 rows: row `r` lies in the block of point `r / 2000`. -/
private theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht0, ht1⟩ := idx_onto ⟨(i 0).val / 2000, by omega⟩
  have q0 : win1_5.index t (0 : Fin 2) = (i 0).val / 2000 := ht0
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- After the second region its result array holds the layer's function of the arrays it was entered with. -/
theorem final (c : Dev nD) :
    (dat1 (F := Ideal) V c).arrAt 5 cfg1.N
      = Cert.Sage.combine 50000 128 128 (V c main_v43) (V c main_v24) (V c main_arg5) (V c main_arg6)
          (fun j => V c main_v44 (ix2 (0 : Fin 1) (j 0))) := by
  exact (dat1 (F := Ideal) V c).arrAt_eq_of_cover 5 _ (fun t _ => flushed_eq V c t) cover

end Cert.KernelIdeal.Layer2

end
-- ==== Proof.RefLayers.lean ====
/-
  The reference's two layers, read as values.

  After each neighbourhood mean the reference forms agg·Wlᵀ + x·Wrᵀ + b by two whole matrix products, adds the bias
  broadcast over the rows and floors at zero.  Index by index that is the layer's function (Spec) of the mean, the
  features, the two weight matrices and the bias.
-/
import proofs.«122773_j12257836663105_1_alg».proof.Proof.Gen.ReferenceIdeal.Read
import proofs.«122773_j12257836663105_1_alg».proof.Proof.Spec
import Idealize.ShloMosaic.Lib.ValueIdx
import Idealize.ShloMosaic.PureOps.Ideal.Laws

set_option maxRecDepth 16384

noncomputable section

namespace Cert.ReferenceIdeal.Layers

open Cert.ReferenceIdeal Cert.ReferenceIdeal.Read
open Idealize.ShloMosaic Idealize.ShloMosaic.TcCoe Idealize.ShloMosaic.ValueIdx
open scoped BigOperators

/-! ### The composed index maps of the first layer, named by coordinates -/

/-- The left factor of the first product is read at row `p`, column `k`. -/
private theorem lidx23 (p : Fin 50000) (q : Fin 128) (k : Fin 64) : lidx_main_v23 (ix2 p q) k = ix2 p k :=
  funext fun a => Fin.ext (by match a with | ⟨0, _⟩ => rfl | ⟨1, _⟩ => rfl)

/-- The transposed weight of the first product, read at row `k`, column `q`, is the weight at row `q`, column `k`. -/
private theorem ridx23 (p : Fin 50000) (q : Fin 128) (k : Fin 64) :
    idx_main_v22 (ridx_main_v23 (ix2 p q) k) = ix2 q k :=
  funext fun a => Fin.ext (by match a with | ⟨0, _⟩ => rfl | ⟨1, _⟩ => rfl)

/-- The left factor of the second product is read at row `p`, column `k`. -/
private theorem lidx25 (p : Fin 50000) (q : Fin 128) (k : Fin 64) : lidx_main_v25 (ix2 p q) k = ix2 p k :=
  funext fun a => Fin.ext (by match a with | ⟨0, _⟩ => rfl | ⟨1, _⟩ => rfl)

/-- The transposed weight of the second product, read at row `k`, column `q`, is the weight at row `q`, column `k`. -/
private theorem ridx25 (p : Fin 50000) (q : Fin 128) (k : Fin 64) :
    idx_main_v24 (ridx_main_v25 (ix2 p q) k) = ix2 q k :=
  funext fun a => Fin.ext (by match a with | ⟨0, _⟩ => rfl | ⟨1, _⟩ => rfl)

/-- The bias broadcast over the rows is read at channel `q`. -/
private theorem bidx28 (p : Fin 50000) (q : Fin 128) : idx_main_v27 (idx_main_v28 (ix2 p q)) = ix1 q :=
  funext fun a => Fin.ext (by match a with | ⟨0, _⟩ => rfl)

/-! ### The composed index maps of the second layer, named by coordinates -/

/-- The left factor of the first product is read at row `p`, column `k`. -/
private theorem lidx50 (p : Fin 50000) (q : Fin 128) (k : Fin 128) : lidx_main_v50 (ix2 p q) k = ix2 p k :=
  funext fun a => Fin.ext (by match a with | ⟨0, _⟩ => rfl | ⟨1, _⟩ => rfl)

/-- The transposed weight of the first product, read at row `k`, column `q`, is the weight at row `q`, column `k`. -/
private theorem ridx50 (p : Fin 50000) (q : Fin 128) (k : Fin 128) :
    idx_main_v49 (ridx_main_v50 (ix2 p q) k) = ix2 q k :=
  funext fun a => Fin.ext (by match a with | ⟨0, _⟩ => rfl | ⟨1, _⟩ => rfl)

/-- The left factor of the second product is read at row `p`, column `k`. -/
private theorem lidx52 (p : Fin 50000) (q : Fin 128) (k : Fin 128) : lidx_main_v52 (ix2 p q) k = ix2 p k :=
  funext fun a => Fin.ext (by match a with | ⟨0, _⟩ => rfl | ⟨1, _⟩ => rfl)

/-- The transposed weight of the second product, read at row `k`, column `q`, is the weight at row `q`, column `k`. -/
private theorem ridx52 (p : Fin 50000) (q : Fin 128) (k : Fin 128) :
    idx_main_v51 (ridx_main_v52 (ix2 p q) k) = ix2 q k :=
  funext fun a => Fin.ext (by match a with | ⟨0, _⟩ => rfl | ⟨1, _⟩ => rfl)

/-- The bias broadcast over the rows is read at channel `q`. -/
private theorem bidx55 (p : Fin 50000) (q : Fin 128) : idx_main_v54 (idx_main_v55 (ix2 p q)) = ix1 q :=
  funext fun a => Fin.ext (by match a with | ⟨0, _⟩ => rfl)

/-- The reference's hidden features are the first layer's function of the mean of the inputs' neighbours. -/
theorem layer1 (x0 : (⟨S50000x64, .f32⟩ : BufTy).Contents (Elt Ideal)) (x1 : (⟨S2x800000, .i32⟩ : BufTy).Contents (Elt Ideal))
    (x2 x3 : (⟨S128x64, .f32⟩ : BufTy).Contents (Elt Ideal)) (x4 : (⟨S128, .f32⟩ : BufTy).Contents (Elt Ideal)) :
    val_main_v30 (F := Ideal) x0 x1 x2 x3 x4
      = Cert.Sage.combine 50000 64 128 (val_main_v21 (F := Ideal) x0 x1) x0 x2 x3 x4 := by
  funext i
  obtain ⟨p, q, rfl⟩ : ∃ (p : Fin 50000) (q : Fin 128), i = ix2 p q := ⟨i 0, i 1, eq_ix2 i⟩
  rw [Cert.Sage.combine_apply, val_main_v30_apply, val_main_v29_apply, val_main_v26_apply, val_main_v23_apply,
    val_main_v25_apply, val_main_v28_apply, val_main_v27_apply, val_main_call0_v0_apply, val_main_call0_cst_apply,
    Ideal.maximumf_def, Ideal.addf_def, Ideal.addf_def, Ideal.ofBits_def, bidx28]
  have hl : ∑ k : Fin 64, val_main_v21 (F := Ideal) x0 x1 (lidx_main_v23 (ix2 p q) k)
        * val_main_v22 (F := Ideal) x2 (ridx_main_v23 (ix2 p q) k)
      = ∑ k : Fin 64, val_main_v21 (F := Ideal) x0 x1 (ix2 p k) * x2 (ix2 q k) :=
    Finset.sum_congr rfl fun k _ => by rw [val_main_v22_apply, lidx23, ridx23]
  have hr : ∑ k : Fin 64, x0 (lidx_main_v25 (ix2 p q) k) * val_main_v24 (F := Ideal) x3 (ridx_main_v25 (ix2 p q) k)
      = ∑ k : Fin 64, x0 (ix2 p k) * x3 (ix2 q k) :=
    Finset.sum_congr rfl fun k _ => by rw [val_main_v24_apply, lidx25, ridx25]
  rw [hl, hr]

/-- The reference's result is the second layer's function of the mean of the hidden features' neighbours. -/
theorem layer2 (x0 : (⟨S50000x64, .f32⟩ : BufTy).Contents (Elt Ideal)) (x1 : (⟨S2x800000, .i32⟩ : BufTy).Contents (Elt Ideal))
    (x2 x3 : (⟨S128x64, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) :
    val_main_v57 (F := Ideal) x0 x1 x2 x3 x4 x5 x6 x7
      = Cert.Sage.combine 50000 128 128 (val_main_v48 (F := Ideal) x0 x1 x2 x3 x4) (val_main_v30 (F := Ideal) x0 x1 x2 x3 x4) x5 x6 x7 := by
  funext i
  obtain ⟨p, q, rfl⟩ : ∃ (p : Fin 50000) (q : Fin 128), i = ix2 p q := ⟨i 0, i 1, eq_ix2 i⟩
  rw [Cert.Sage.combine_apply, val_main_v57_apply, val_main_v56_apply, val_main_v53_apply, val_main_v50_apply,
    val_main_v52_apply, val_main_v55_apply, val_main_v54_apply, val_main_call1_v0_apply, val_main_call1_cst_apply,
    Ideal.maximumf_def, Ideal.addf_def, Ideal.addf_def, Ideal.ofBits_def, bidx55]
  -- the mean of the hidden features and the hidden features themselves stay closed: only their names are carried
  generalize val_main_v48 (F := Ideal) x0 x1 x2 x3 x4 = a
  generalize val_main_v30 (F := Ideal) x0 x1 x2 x3 x4 = h
  have hl : ∑ k : Fin 128, a (lidx_main_v50 (ix2 p q) k) * val_main_v49 (F := Ideal) x5 (ridx_main_v50 (ix2 p q) k)
      = ∑ k : Fin 128, a (ix2 p k) * x5 (ix2 q k) :=
    Finset.sum_congr rfl fun k _ => by rw [val_main_v49_apply, lidx50, ridx50]
  have hr : ∑ k : Fin 128, h (lidx_main_v52 (ix2 p q) k) * val_main_v51 (F := Ideal) x6 (ridx_main_v52 (ix2 p q) k)
      = ∑ k : Fin 128, h (ix2 p k) * x6 (ix2 q k) :=
    Finset.sum_congr rfl fun k _ => by rw [val_main_v51_apply, lidx52, ridx52]
  rw [hl, hr]

end Cert.ReferenceIdeal.Layers

end
-- ==== Proof.HostK.lean ====
/-
  The kernel program's host stretches, read as values.

  Before each dense region the kernel program forms, on the host, the mean of every node's in-neighbours' features:
  the source indices wrapped once if negative, the rows gathered, added into the destination rows, and divided by
  max(count, 1), the count being the number of edges that end at the node.  The reference does the same, except that it
  keeps the count as an [N, 1] column where the kernel program keeps a length-N vector and views it as a column
  afterwards.  An accumulating scatter of ones into a vector and into a one-column matrix count the same edges
  (LibScatterColumn), so the two divisors are one array, and every other operation of the two chains is the same
  operation on the same operands: the kernel program's aggregated arrays ARE the reference's stages.  With the two
  dense regions read as the layer's function (Layer1K, Layer2K) and the reference's layers read the same way
  (RefLayers), the kernel program's result array is the reference's result stage of the same arguments.
-/
import proofs.«122773_j12257836663105_1_alg».proof.Proof.Gen.KernelIdeal.Frame
import proofs.«122773_j12257836663105_1_alg».proof.Proof.Gen.ReferenceIdeal.Read
import proofs.«122773_j12257836663105_1_alg».proof.Proof.LibScatterColumn
import proofs.«122773_j12257836663105_1_alg».proof.Proof.Layer1K
import proofs.«122773_j12257836663105_1_alg».proof.Proof.Layer2K
import proofs.«122773_j12257836663105_1_alg».proof.Proof.RefLayers
import proofs.«122773_j12257836663105_1_alg».proof.Proof.KernelRun
import Idealize.ShloMosaic.Lib.StableHlo.Run
import Idealize.ShloMosaic.Lib.Pipeline.Value
import Idealize.ShloMosaic.Lib.ValueIdx

set_option maxRecDepth 16384

noncomputable section

namespace Cert.KernelIdeal.Host

open Cert.KernelIdeal Cert.KernelIdeal.Gen
open Idealize.ShloMosaic Idealize.ShloMosaic.TcCoe Idealize.ShloMosaic.ValueIdx Idealize.SL.Sem Idealize.ShloMosaic.StableHlo

/-! ## The divisor: a count kept as a vector and viewed as a column, against a count kept as a column -/

/-- The number of edges ending at node p, counted into an [N, 1] column, is the number counted into a length-N vector. -/
theorem count_col (idx : IVec S800000x1 32) (p : Fin 50000) :
    Host.scatterAdd (F := Ideal) Cert.ReferenceIdeal.scatter_S50000x1_S800000x1_S800000x1_1_0_0_1
        (broadcastInDim Cert.ReferenceIdeal.S50000x1 ![] Cert.ReferenceIdeal.Facts₀.bcast_S_S50000x1 (constant (F := Ideal) S_ .f32 0x00000000#32)) idx
        (broadcastInDim Cert.ReferenceIdeal.S800000x1 ![] Cert.ReferenceIdeal.Facts₀.bcast_S_S800000x1 (constant (F := Ideal) S_ .f32 0x3F800000#32)) (ix2 p (0 : Fin 1))
      = Host.scatterAdd (F := Ideal) scatter_S50000_S800000x1_S800000_n_0_0_1
        (broadcastInDim S50000 ![] bcast_S_S50000 (constant (F := Ideal) S_ .f32 0x00000000#32)) idx
        (broadcastInDim S800000 ![] bcast_S_S800000 (constant (F := Ideal) S_ .f32 0x3F800000#32)) (ix1 p) :=
  Cert.ScatterColumn.host_scatterAdd_column (n := 50000) (e := 800000) (w := 32)
    scatter_S50000_S800000x1_S800000_n_0_0_1.wf Cert.ReferenceIdeal.scatter_S50000x1_S800000x1_S800000x1_1_0_0_1.wf
    (broadcastInDim S50000 ![] bcast_S_S50000 (constant (F := Ideal) S_ .f32 0x00000000#32))
    (broadcastInDim Cert.ReferenceIdeal.S50000x1 ![] Cert.ReferenceIdeal.Facts₀.bcast_S_S50000x1 (constant (F := Ideal) S_ .f32 0x00000000#32))
    idx
    (broadcastInDim S800000 ![] bcast_S_S800000 (constant (F := Ideal) S_ .f32 0x3F800000#32))
    (broadcastInDim Cert.ReferenceIdeal.S800000x1 ![] Cert.ReferenceIdeal.Facts₀.bcast_S_S800000x1 (constant (F := Ideal) S_ .f32 0x3F800000#32))
    (fun _ => rfl) (fun _ => rfl) p

/-- max(count, 1) with the count scattered into a length-N vector and then viewed as an [N, 1] column is
    max(count, 1) with the count scattered into an [N, 1] column. -/
theorem den_eq (idx : IVec S800000x1 32) :
    broadcastInDim S50000x1 ![0] bcast_S50000_S50000x1_0
        (maximumf (F := Ideal)
          (Host.scatterAdd scatter_S50000_S800000x1_S800000_n_0_0_1
            (broadcastInDim S50000 ![] bcast_S_S50000 (constant (F := Ideal) S_ .f32 0x00000000#32)) idx
            (broadcastInDim S800000 ![] bcast_S_S800000 (constant (F := Ideal) S_ .f32 0x3F800000#32)))
          (broadcastInDim S50000 ![] bcast_S_S50000 (constant (F := Ideal) S_ .f32 0x3F800000#32)))
      = maximumf (F := Ideal)
          (Host.scatterAdd Cert.ReferenceIdeal.scatter_S50000x1_S800000x1_S800000x1_1_0_0_1
            (broadcastInDim Cert.ReferenceIdeal.S50000x1 ![] Cert.ReferenceIdeal.Facts₀.bcast_S_S50000x1 (constant (F := Ideal) S_ .f32 0x00000000#32)) idx
            (broadcastInDim Cert.ReferenceIdeal.S800000x1 ![] Cert.ReferenceIdeal.Facts₀.bcast_S_S800000x1 (constant (F := Ideal) S_ .f32 0x3F800000#32)))
          (broadcastInDim Cert.ReferenceIdeal.S50000x1 ![] Cert.ReferenceIdeal.Facts₀.bcast_S_S50000x1 (constant (F := Ideal) S_ .f32 0x3F800000#32)) := by
  funext i
  obtain ⟨p, u, rfl⟩ : ∃ (p : Fin 50000) (u : Fin 1), i = ix2 p u := ⟨i 0, i 1, eq_ix2 i⟩
  obtain rfl : u = 0 := Subsingleton.elim _ _
  rw [broadcastInDim_apply _ bcast_S50000_S50000x1_0 _ (ix2 p (0 : Fin 1)) (ix1 p) (fun a => match a with
    | ⟨0, _⟩ => by show p.val = if (50000 : Nat) = 1 then 0 else p.val; rw [if_neg (by decide)])]
  rw [maximumf_apply, maximumf_apply]
  exact congrArg₂ max (count_col idx p).symm rfl

/-! ## A bias vector stored as a row -/

/-- A length-a vector viewed as a row [1, a] reads, at (0, q), the vector at q. -/
theorem shapeCast_row_apply {α : Type} {a : ℕ} (x : (⟨1, ![a]⟩ : Shape).Idx → α)
    (h : (⟨1, ![a]⟩ : Shape).ShapeCasts ⟨2, ![1, a]⟩) (q : Fin a) :
    shapeCast ⟨2, ![1, a]⟩ x h (ix2 (0 : Fin 1) q) = x (ix1 q) :=
  shapeCast_apply x h _ _ (by
    rw [Shape.rowMajor_val_two, Shape.rowMajor_val_one]
    show q.val = 0 * a + q.val
    omega)

variable (m : (ℓ : Loc nD τ sig) → Buf (Elt Ideal) ℓ) (ρ : Dev nD → PrngReg)

/-! ## What the first region is entered with -/

theorem V1_arg0 (c : Dev nD) : V1 m ρ c main_arg0 = m ((c : Thread nD τ).loc main_arg0) := by
  show StableHlo.after hostOps0 (W0 m ρ c) (Proc.devRef .tc main_arg0) = _
  after_results_simp <;> rfl
theorem V1_arg2 (c : Dev nD) : V1 m ρ c main_arg2 = m ((c : Thread nD τ).loc main_arg2) := by
  show StableHlo.after hostOps0 (W0 m ρ c) (Proc.devRef .tc main_arg2) = _
  after_results_simp <;> rfl
theorem V1_arg3 (c : Dev nD) : V1 m ρ c main_arg3 = m ((c : Thread nD τ).loc main_arg3) := by
  show StableHlo.after hostOps0 (W0 m ρ c) (Proc.devRef .tc main_arg3) = _
  after_results_simp <;> rfl

/-- The first bias, stored as a [1, 128] row for the region, read back at (0, q). -/
theorem V1_bias (c : Dev nD) :
    (fun j : S128.Idx => V1 m ρ c main_v23 (ix2 (0 : Fin 1) (j 0))) = m ((c : Thread nD τ).loc main_arg4) := by
  have e : V1 m ρ c main_v23 = shapeCast S1x128 (m ((c : Thread nD τ).loc main_arg4)) shapeCasts_S128_S1x128 := by
    show StableHlo.after hostOps0 (W0 m ρ c) (Proc.devRef .tc main_v23) = _
    after_results_simp <;> rfl
  funext j
  obtain ⟨q, rfl⟩ : ∃ q : Fin 128, j = ix1 q := ⟨j 0, eq_ix1 j⟩
  rw [e]
  exact shapeCast_row_apply (a := 128) _ _ q

set_option maxHeartbeats 8000000 in
/-- The mean of the input features' in-neighbours, as the kernel program's host stretch forms it, is the reference's. -/
theorem agg1 (c : Dev nD) :
    V1 m ρ c main_v22 = Cert.ReferenceIdeal.Read.val_main_v21 (F := Ideal) (m ((c : Thread nD τ).loc main_arg0)) (m ((c : Thread nD τ).loc main_arg1)) := by
  show StableHlo.after hostOps0 (W0 m ρ c) (Proc.devRef .tc main_v22) = _
  after_results_simp
  rw [den_eq]
  rfl

/-- The hidden features: what the first region leaves in its result array is the reference's hidden stage. -/
theorem hidden (c : Dev nD) :
    W2 m ρ c (Proc.devRef .tc main_v24)
      = Cert.ReferenceIdeal.Read.val_main_v30 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) :=
  (W2_arr m ρ c 5).trans ((Cert.KernelIdeal.Layer1.final (V1 m ρ) c).trans (by
    rw [agg1, V1_arg0, V1_arg2, V1_arg3, V1_bias]
    exact (Cert.ReferenceIdeal.Layers.layer1 _ _ _ _ _).symm))

/-! ## What the second region is entered with -/

/-- The source and destination index vectors, written before the first region, are still there after it. -/
theorem W2_v1 (c : Dev nD) : W2 m ρ c (Proc.devRef .tc main_v1)
    = shapeCast S800000 (extractStridedSlice S1x800000 ![0, 0] (m ((c : Thread nD τ).loc main_arg1)) slices_S2x800000_S1x800000_0_0) shapeCasts_S1x800000_S800000 :=
  (W2_of_ne m ρ c main_v1 (by decide)).trans (by
    show StableHlo.after hostOps0 (W0 m ρ c) (Proc.devRef .tc main_v1) = _
    after_results_simp <;> rfl)
theorem W2_v3 (c : Dev nD) : W2 m ρ c (Proc.devRef .tc main_v3)
    = shapeCast S800000 (extractStridedSlice S1x800000 ![1, 0] (m ((c : Thread nD τ).loc main_arg1)) slices_S2x800000_S1x800000_1_0) shapeCasts_S1x800000_S800000 :=
  (W2_of_ne m ρ c main_v3 (by decide)).trans (by
    show StableHlo.after hostOps0 (W0 m ρ c) (Proc.devRef .tc main_v3) = _
    after_results_simp <;> rfl)
theorem W2_arg (c : Dev nD) (b : Ref sig .tc) (hb : ∀ w, Pipeline.arrRef spec0 w ≠ b)
    (h0 : StableHlo.after hostOps0 (W0 m ρ c) (Proc.devRef .tc b) = m ((c : Thread nD τ).loc b)) :
    W2 m ρ c (Proc.devRef .tc b) = m ((c : Thread nD τ).loc b) :=
  (W2_of_ne m ρ c b hb).trans h0

theorem V3_hidden (c : Dev nD) : V3 m ρ c main_v24 = W2 m ρ c (Proc.devRef .tc main_v24) := by
  show StableHlo.after hostOps1 (W2 m ρ c) (Proc.devRef .tc main_v24) = _
  after_results_simp
theorem V3_arg5 (c : Dev nD) : V3 m ρ c main_arg5 = m ((c : Thread nD τ).loc main_arg5) := by
  show StableHlo.after hostOps1 (W2 m ρ c) (Proc.devRef .tc main_arg5) = _
  after_results_simp
  exact W2_arg m ρ c main_arg5 (by decide) (by after_results_simp <;> rfl)
theorem V3_arg6 (c : Dev nD) : V3 m ρ c main_arg6 = m ((c : Thread nD τ).loc main_arg6) := by
  show StableHlo.after hostOps1 (W2 m ρ c) (Proc.devRef .tc main_arg6) = _
  after_results_simp
  exact W2_arg m ρ c main_arg6 (by decide) (by after_results_simp <;> rfl)

/-- The second bias, stored as a [1, 128] row for the region, read back at (0, q). -/
theorem V3_bias (c : Dev nD) :
    (fun j : S128.Idx => V3 m ρ c main_v44 (ix2 (0 : Fin 1) (j 0))) = m ((c : Thread nD τ).loc main_arg7) := by
  have e : V3 m ρ c main_v44 = shapeCast S1x128 (m ((c : Thread nD τ).loc main_arg7)) shapeCasts_S128_S1x128 := by
    show StableHlo.after hostOps1 (W2 m ρ c) (Proc.devRef .tc main_v44) = _
    after_results_simp
    rw [W2_arg m ρ c main_arg7 (by decide) (by after_results_simp <;> rfl)]
    rfl
  funext j
  obtain ⟨q, rfl⟩ : ∃ q : Fin 128, j = ix1 q := ⟨j 0, eq_ix1 j⟩
  rw [e]
  exact shapeCast_row_apply (a := 128) _ _ q

set_option maxHeartbeats 8000000 in
/-- The mean of the hidden features' in-neighbours, as the kernel program's second host stretch forms it, is the
    reference's. -/
theorem agg2 (c : Dev nD) :
    V3 m ρ c main_v43
      = Cert.ReferenceIdeal.Read.val_main_v48 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  show StableHlo.after hostOps1 (W2 m ρ c) (Proc.devRef .tc main_v43) = _
  after_results_simp
  rw [W2_v1, W2_v3, hidden, den_eq]
  rfl

/-- THE RESULT: what the second region leaves in the result array is the reference's result stage of the arguments. -/
theorem result (c : Dev nD) :
    W4 m ρ c (Proc.devRef .tc main_v45)
      = Cert.ReferenceIdeal.Read.val_main_v57 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) :=
  (W4_arr m ρ c 5).trans ((Cert.KernelIdeal.Layer2.final (V3 m ρ) c).trans (by
    rw [agg2, V3_hidden, hidden, V3_arg5, V3_arg6, V3_bias]
    exact (Cert.ReferenceIdeal.Layers.layer2 _ _ _ _ _ _ _ _).symm))

/-- THE RUN, READ: every weakly fair execution of the kernel program ends with its result array at the reference's
    result stage of the launch arguments, and the arguments as launched. -/
theorem run_value : θ_run defs (onTc (τ := τ) (main (F := Ideal))) ⟨m, fun _ => 0, ρ⟩ (fun r => ∀ c : Dev nD,
      r.2.mem ((c.tc : Thread nD τ).loc main_v45)
        = Cert.ReferenceIdeal.Read.val_main_v57 (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result m ρ c), (h c).2⟩) (Cert.KernelIdeal.Run.run_result (F := Ideal) m ρ)

end Cert.KernelIdeal.Host

end
-- ==== Proof.lean ====
/-
  A two-layer graph encoder with mean aggregation: the kernel program against its reference, over the extended reals.

  Both programs compute, twice over, h ↦ max (mean(h)·Wlᵀ + h·Wrᵀ + b) 0, where mean(h) at node n is the sum of the
  rows h[src e] over the edges e with dst e = n, divided by max(count(n), 1), count(n) being the number of such edges
  (an out-of-range destination contributes nothing on either side, a negative source index is wrapped once, on both
  sides by the same operations).  The kernel program forms the mean on the host exactly as the reference does, except
  that it counts into a length-N vector and views it as a column afterwards, where the reference counts into an [N, 1]
  column; the two counts are the same numbers (LibScatterColumn, used in HostK).  It then computes the affine map and
  the floor at zero in a tiled region: 25 blocks of 2000 rows, each block the two products of a block of rows with the
  transposed weights, summed, plus the bias row, floored at zero (Layer1K, Layer2K); the reference does it with two
  whole matrix products (RefLayers).  Index by index both are
  max ((∑ₖ a[p,k]·wl[q,k] + ∑ₖ x[p,k]·wr[q,k]) + b[q]) 0 (Spec): the same sums in the same grouping, so no law beyond
  reading each operation at an index is needed, and the inputs' finiteness is never used.  The changes of float format
  in the kernel's body are the identity on the extended reals.

  The three frames are the generated ones (the reference's is its generated run with the result dropped); the
  idealization rewrote nothing, so `preserves` is trivial; `algebraic` pairs the kernel program's run, read as a value
  (KernelRun for the run with the result named, HostK for the value), with the reference's generated run, both results
  being the reference's own result stage of the agreeing arguments.
-/
import proofs.«122773_j12257836663105_1_alg».proof.Defs
import proofs.«122773_j12257836663105_1_alg».proof.Proof.Gen.Kernel
import proofs.«122773_j12257836663105_1_alg».proof.Proof.Gen.Kernel.Skeleton
import proofs.«122773_j12257836663105_1_alg».proof.Proof.Gen.Kernel.Launch
import proofs.«122773_j12257836663105_1_alg».proof.Proof.Gen.Kernel.Points
import proofs.«122773_j12257836663105_1_alg».proof.Proof.Gen.Kernel.Frame
import proofs.«122773_j12257836663105_1_alg».proof.Proof.Gen.KernelIdeal
import proofs.«122773_j12257836663105_1_alg».proof.Proof.Gen.KernelIdeal.Skeleton
import proofs.«122773_j12257836663105_1_alg».proof.Proof.Gen.KernelIdeal.Launch
import proofs.«122773_j12257836663105_1_alg».proof.Proof.Gen.KernelIdeal.Points
import proofs.«122773_j12257836663105_1_alg».proof.Proof.Gen.KernelIdeal.Frame
import proofs.«122773_j12257836663105_1_alg».proof.Proof.Gen.ReferenceIdeal
import proofs.«122773_j12257836663105_1_alg».proof.Proof.Gen.ReferenceIdeal.Run
import proofs.«122773_j12257836663105_1_alg».proof.Proof.Gen.ReferenceIdeal.Read
import proofs.«122773_j12257836663105_1_alg».proof.Proof.Gen.Pre_finite_inputs
import proofs.«122773_j12257836663105_1_alg».proof.Proof.KernelRun
import proofs.«122773_j12257836663105_1_alg».proof.Proof.HostK
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories that agree on the arguments, both idealized programs end with the reference's result stage of
    those arguments in their result arrays. -/
theorem algebraic : Cert.algebraic_KernelIdeal_ReferenceIdeal := by
  intro m ρ m' ρ' _ hagree
  refine ⟨_, Cert.KernelIdeal.Host.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v57_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
